-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S3x16384 : Shape := ⟨2, ![3, 16384]⟩
abbrev S16384x1 : Shape := ⟨2, ![16384, 1]⟩
abbrev S512x3 : Shape := ⟨2, ![512, 3]⟩
abbrev S512x1 : Shape := ⟨2, ![512, 1]⟩
abbrev S512 : Shape := ⟨1, ![512]⟩
abbrev S3x1024 : Shape := ⟨2, ![3, 1024]⟩
abbrev S1024 : Shape := ⟨1, ![1024]⟩
abbrev S1x1024 : Shape := ⟨2, ![1, 1024]⟩
abbrev S512x1024 : Shape := ⟨2, ![512, 1024]⟩
abbrev S16384 : Shape := ⟨1, ![16384]⟩
abbrev S_ : Shape := ⟨0, ![]⟩

abbrev nBuf : Space → Nat
  | .hbm => 17
  | .vmem => 10
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S3x16384, .f32⟩
  | .hbm, ⟨3, _⟩ => ⟨S16384x1, .f32⟩
  | .hbm, ⟨4, _⟩ => ⟨S16384, .f32⟩
  | .hbm, ⟨5, _⟩ => ⟨S3x16384, .f32⟩
  | .hbm, ⟨6, _⟩ => ⟨S16384x1, .f32⟩
  | .hbm, ⟨7, _⟩ => ⟨S16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S3x16384, .f32⟩
  | .local _ .vmem, ⟨3, _⟩ => ⟨S512x1, .f32⟩
  | .local _ .vmem, ⟨4, _⟩ => ⟨S512x1, .f32⟩
  | .local _ .vmem, ⟨5, _⟩ => ⟨S512x3, .f32⟩
  | .local _ .vmem, ⟨6, _⟩ => ⟨S512x3, .f32⟩
  | .local _ .vmem, ⟨7, _⟩ => ⟨S3x16384, .f32⟩
  | .local _ .vmem, ⟨8, _⟩ => ⟨S512x1, .f32⟩
  | .local _ .vmem, ⟨9, _⟩ => ⟨S512x1, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c1024_i32 : BitVec 32 := 1024#32
  let v6 : BitVec 32 := Scalar.muli c0_i32 c1024_i32
  v6
def k0_off1 (c0_i32 : BitVec 32) : Fin 2 → Nat :=
  let c0_2 : Index := 0#32
  let c1024_i32 : BitVec 32 := 1024#32
  let v6 : BitVec 32 := Scalar.muli c0_i32 c1024_i32
  let v7 : BitVec 32 := v6
  let v8 : Index := Scalar.indexCast v7
  ![0, v8.toNat]
def k0_mult2 : BitVec 32 :=
  let c1_i32 : BitVec 32 := 1#32
  let c1024_i32_8 : BitVec 32 := 1024#32
  let v27 : BitVec 32 := Scalar.muli c1_i32 c1024_i32_8
  v27
def k0_mult3 : BitVec 32 :=
  let c2_i32 : BitVec 32 := 2#32
  let c1024_i32_15 : BitVec 32 := 1024#32
  let v48 : BitVec 32 := Scalar.muli c2_i32 c1024_i32_15
  v48
def k0_mult4 : BitVec 32 :=
  let c3_i32 : BitVec 32 := 3#32
  let c1024_i32_22 : BitVec 32 := 1024#32
  let v69 : BitVec 32 := Scalar.muli c3_i32 c1024_i32_22
  v69
def k0_mult5 : BitVec 32 :=
  let c4_i32 : BitVec 32 := 4#32
  let c1024_i32_29 : BitVec 32 := 1024#32
  let v90 : BitVec 32 := Scalar.muli c4_i32 c1024_i32_29
  v90
def k0_mult6 : BitVec 32 :=
  let c5_i32 : BitVec 32 := 5#32
  let c1024_i32_36 : BitVec 32 := 1024#32
  let v111 : BitVec 32 := Scalar.muli c5_i32 c1024_i32_36
  v111
def k0_mult7 : BitVec 32 :=
  let c6_i32 : BitVec 32 := 6#32
  let c1024_i32_43 : BitVec 32 := 1024#32
  let v132 : BitVec 32 := Scalar.muli c6_i32 c1024_i32_43
  v132
def k0_mult8 : BitVec 32 :=
  let c7_i32 : BitVec 32 := 7#32
  let c1024_i32_50 : BitVec 32 := 1024#32
  let v153 : BitVec 32 := Scalar.muli c7_i32 c1024_i32_50
  v153
def k0_mult9 : BitVec 32 :=
  let c8_i32 : BitVec 32 := 8#32
  let c1024_i32_57 : BitVec 32 := 1024#32
  let v174 : BitVec 32 := Scalar.muli c8_i32 c1024_i32_57
  v174
def k0_mult10 : BitVec 32 :=
  let c9_i32 : BitVec 32 := 9#32
  let c1024_i32_64 : BitVec 32 := 1024#32
  let v195 : BitVec 32 := Scalar.muli c9_i32 c1024_i32_64
  v195
def k0_mult11 : BitVec 32 :=
  let c10_i32 : BitVec 32 := 10#32
  let c1024_i32_71 : BitVec 32 := 1024#32
  let v216 : BitVec 32 := Scalar.muli c10_i32 c1024_i32_71
  v216
def k0_mult12 : BitVec 32 :=
  let c11_i32 : BitVec 32 := 11#32
  let c1024_i32_78 : BitVec 32 := 1024#32
  let v237 : BitVec 32 := Scalar.muli c11_i32 c1024_i32_78
  v237
def k0_mult13 : BitVec 32 :=
  let c12_i32 : BitVec 32 := 12#32
  let c1024_i32_85 : BitVec 32 := 1024#32
  let v258 : BitVec 32 := Scalar.muli c12_i32 c1024_i32_85
  v258
def k0_mult14 : BitVec 32 :=
  let c13_i32 : BitVec 32 := 13#32
  let c1024_i32_92 : BitVec 32 := 1024#32
  let v279 : BitVec 32 := Scalar.muli c13_i32 c1024_i32_92
  v279
def k0_mult15 : BitVec 32 :=
  let c14_i32 : BitVec 32 := 14#32
  let c1024_i32_99 : BitVec 32 := 1024#32
  let v300 : BitVec 32 := Scalar.muli c14_i32 c1024_i32_99
  v300
def k0_mult16 : BitVec 32 :=
  let c15_i32 : BitVec 32 := 15#32
  let c1024_i32_106 : BitVec 32 := 1024#32
  let v321 : BitVec 32 := Scalar.muli c15_i32 c1024_i32_106
  v321
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def k1_mult1 : BitVec 32 :=
  let c0_i32 : BitVec 32 := 0#32
  let c1024_i32 : BitVec 32 := 1024#32
  let v6 : BitVec 32 := Scalar.muli c0_i32 c1024_i32
  v6
def k1_off1 (c0_i32 : BitVec 32) : Fin 2 → Nat :=
  let c0_2 : Index := 0#32
  let c1024_i32 : BitVec 32 := 1024#32
  let v6 : BitVec 32 := Scalar.muli c0_i32 c1024_i32
  let v7 : BitVec 32 := v6
  let v8 : Index := Scalar.indexCast v7
  ![0, v8.toNat]
def k1_mult2 : BitVec 32 :=
  let c1_i32 : BitVec 32 := 1#32
  let c1024_i32_8 : BitVec 32 := 1024#32
  let v27 : BitVec 32 := Scalar.muli c1_i32 c1024_i32_8
  v27
def k1_mult3 : BitVec 32 :=
  let c2_i32 : BitVec 32 := 2#32
  let c1024_i32_15 : BitVec 32 := 1024#32
  let v48 : BitVec 32 := Scalar.muli c2_i32 c1024_i32_15
  v48
def k1_mult4 : BitVec 32 :=
  let c3_i32 : BitVec 32 := 3#32
  let c1024_i32_22 : BitVec 32 := 1024#32
  let v69 : BitVec 32 := Scalar.muli c3_i32 c1024_i32_22
  v69
def k1_mult5 : BitVec 32 :=
  let c4_i32 : BitVec 32 := 4#32
  let c1024_i32_29 : BitVec 32 := 1024#32
  let v90 : BitVec 32 := Scalar.muli c4_i32 c1024_i32_29
  v90
def k1_mult6 : BitVec 32 :=
  let c5_i32 : BitVec 32 := 5#32
  let c1024_i32_36 : BitVec 32 := 1024#32
  let v111 : BitVec 32 := Scalar.muli c5_i32 c1024_i32_36
  v111
def k1_mult7 : BitVec 32 :=
  let c6_i32 : BitVec 32 := 6#32
  let c1024_i32_43 : BitVec 32 := 1024#32
  let v132 : BitVec 32 := Scalar.muli c6_i32 c1024_i32_43
  v132
def k1_mult8 : BitVec 32 :=
  let c7_i32 : BitVec 32 := 7#32
  let c1024_i32_50 : BitVec 32 := 1024#32
  let v153 : BitVec 32 := Scalar.muli c7_i32 c1024_i32_50
  v153
def k1_mult9 : BitVec 32 :=
  let c8_i32 : BitVec 32 := 8#32
  let c1024_i32_57 : BitVec 32 := 1024#32
  let v174 : BitVec 32 := Scalar.muli c8_i32 c1024_i32_57
  v174
def k1_mult10 : BitVec 32 :=
  let c9_i32 : BitVec 32 := 9#32
  let c1024_i32_64 : BitVec 32 := 1024#32
  let v195 : BitVec 32 := Scalar.muli c9_i32 c1024_i32_64
  v195
def k1_mult11 : BitVec 32 :=
  let c10_i32 : BitVec 32 := 10#32
  let c1024_i32_71 : BitVec 32 := 1024#32
  let v216 : BitVec 32 := Scalar.muli c10_i32 c1024_i32_71
  v216
def k1_mult12 : BitVec 32 :=
  let c11_i32 : BitVec 32 := 11#32
  let c1024_i32_78 : BitVec 32 := 1024#32
  let v237 : BitVec 32 := Scalar.muli c11_i32 c1024_i32_78
  v237
def k1_mult13 : BitVec 32 :=
  let c12_i32 : BitVec 32 := 12#32
  let c1024_i32_85 : BitVec 32 := 1024#32
  let v258 : BitVec 32 := Scalar.muli c12_i32 c1024_i32_85
  v258
def k1_mult14 : BitVec 32 :=
  let c13_i32 : BitVec 32 := 13#32
  let c1024_i32_92 : BitVec 32 := 1024#32
  let v279 : BitVec 32 := Scalar.muli c13_i32 c1024_i32_92
  v279
def k1_mult15 : BitVec 32 :=
  let c14_i32 : BitVec 32 := 14#32
  let c1024_i32_99 : BitVec 32 := 1024#32
  let v300 : BitVec 32 := Scalar.muli c14_i32 c1024_i32_99
  v300
def k1_mult16 : BitVec 32 :=
  let c15_i32 : BitVec 32 := 15#32
  let c1024_i32_106 : BitVec 32 := 1024#32
  let v321 : BitVec 32 := Scalar.muli c15_i32 c1024_i32_106
  v321
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x16384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S16384x3_S3x16384_1_0 : S16384x3.Transposes [1, 0] S3x16384
  inb_S512x3_S512x3_0_0 : ∀ a, (![0, 0] : Fin 2 → Nat) a + S512x3.size a ≤ S512x3.size a
  h_S512x3 : 0 < S512x3.numel
  reduces_S512x3_S512 : S512x3.Reduces [1] S512
  shapeCasts_S512_S512x1 : S512.ShapeCasts S512x1
  bitsLt_bf16_f32 : FTy.bits .bf16 < FTy.bits .f32
  h_S3x1024 : 0 < S3x1024.numel
  shapeCasts_S3x1024_S3x1024 : S3x1024.ShapeCasts S3x1024
  reduces_S3x1024_S1024 : S3x1024.Reduces [0] S1024
  shapeCasts_S1024_S1x1024 : S1024.ShapeCasts S1x1024
  broadcasts_S512x1_S512x1024 : S512x1.Broadcasts S512x1024
  broadcasts_S1x1024_S512x1024 : S1x1024.Broadcasts S512x1024
  reduces_S512x1024_S512 : S512x1024.Reduces [1] S512
  inb_S512x1_S512x1_0_0 : ∀ a, (![0, 0] : Fin 2 → Nat) a + S512x1.size a ≤ S512x1.size a
  h_S512x1 : 0 < S512x1.numel
  shapeCasts_S16384x1_S16384 : S16384x1.ShapeCasts S16384
  reducesTo_S16384_S_d0 : S16384.ReducesTo [0] S_
  h_S_ : 0 < S_.numel
  dot_S512x3_S3x1024_S512x1024_1_0_0_1_n_n_wf : DotDims.WF S512x3 S3x1024 S512x1024 [1] [0] [0] [1] [] []
  hrank0 : 0 < grid0.rank
  k0_mult1_dvd : 1024 ∣ k0_mult1.toNat
  k0_off1_inb : ∀ (r : Fin 16), ∀ a, (k0_off1 (BitVec.ofNat 32 r.val)) a + S3x1024.size a ≤ S3x16384.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  k0_mult9_dvd : 1024 ∣ k0_mult9.toNat
  k0_mult10_dvd : 1024 ∣ k0_mult10.toNat
  k0_mult11_dvd : 1024 ∣ k0_mult11.toNat
  k0_mult12_dvd : 1024 ∣ k0_mult12.toNat
  k0_mult13_dvd : 1024 ∣ k0_mult13.toNat
  k0_mult14_dvd : 1024 ∣ k0_mult14.toNat
  k0_mult15_dvd : 1024 ∣ k0_mult15.toNat
  k0_mult16_dvd : 1024 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S16384x3.size a
  hwx0_0 : ∀ i : grid0.Coords, EltTy.bits .f32 = 32 ∨ (Rect.block (s := S16384x3) S512x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16384.size a ≤ S3x16384.size a
  hwx0_1 : ∀ i : grid0.Coords, EltTy.bits .f32 = 32 ∨ (Rect.block (s := S3x16384) S3x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hrank1 : 0 < grid1.rank
  k1_mult1_dvd : 1024 ∣ k1_mult1.toNat
  k1_off1_inb : ∀ (r : Fin 16), ∀ a, (k1_off1 (BitVec.ofNat 32 r.val)) a + S3x1024.size a ≤ S3x16384.size a
  k1_mult2_dvd : 1024 ∣ k1_mult2.toNat
  k1_mult3_dvd : 1024 ∣ k1_mult3.toNat
  k1_mult4_dvd : 1024 ∣ k1_mult4.toNat
  k1_mult5_dvd : 1024 ∣ k1_mult5.toNat
  k1_mult6_dvd : 1024 ∣ k1_mult6.toNat
  k1_mult7_dvd : 1024 ∣ k1_mult7.toNat
  k1_mult8_dvd : 1024 ∣ k1_mult8.toNat
  k1_mult9_dvd : 1024 ∣ k1_mult9.toNat
  k1_mult10_dvd : 1024 ∣ k1_mult10.toNat
  k1_mult11_dvd : 1024 ∣ k1_mult11.toNat
  k1_mult12_dvd : 1024 ∣ k1_mult12.toNat
  k1_mult13_dvd : 1024 ∣ k1_mult13.toNat
  k1_mult14_dvd : 1024 ∣ k1_mult14.toNat
  k1_mult15_dvd : 1024 ∣ k1_mult15.toNat
  k1_mult16_dvd : 1024 ∣ k1_mult16.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3.size a ≤ S16384x3.size a
  hwx1_0 : ∀ i : grid1.Coords, EltTy.bits .f32 = 32 ∨ (Rect.block (s := S16384x3) S512x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x16384.size a ≤ S3x16384.size a
  hwx1_1 : ∀ i : grid1.Coords, EltTy.bits .f32 = 32 ∨ (Rect.block (s := S3x16384) S3x16384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S16384x1.size a
  hwx1_2 : ∀ i : grid1.Coords, EltTy.bits .f32 = 32 ∨ (Rect.block (s := S16384x1) S512x1.size (cc1_transform_2 i) (hinb1_2 i)).WholeWords (EltTy.packing .f32)

variable [Facts₀]

def dot_S512x3_S3x1024_S512x1024_1_0_0_1_n_n : DotDims S512x3 S3x1024 S512x1024 where
  lhsContracting := [1]
  rhsContracting := [0]
  lhsNonContracting := [0]
  rhsNonContracting := [1]
  lhsBatch := []
  rhsBatch := []
  wf := dot_S512x3_S3x1024_S512x1024_1_0_0_1_n_n_wf

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S3x16384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S3x16384 : Shape := ⟨2, ![3, 16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x3, .f32⟩
  | .hbm, ⟨6, _⟩ => ⟨S_, .f32⟩
  | .hbm, ⟨7, _⟩ => ⟨S16384, .f32⟩
  | .hbm, ⟨8, _⟩ => ⟨S3x16384, .f32⟩
  | .hbm, ⟨9, _⟩ => ⟨S16384x16384, .f32⟩
  | .hbm, ⟨10, _⟩ => ⟨S16384x1, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  transposes_S16384x3_S3x16384_1_0 : S16384x3.Transposes [1, 0] S3x16384
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d0 : S16384x16384.ReducesTo [0] S16384
  reducesTo_S16384_S_d0 : S16384.ReducesTo [0] S_
  reducesTo_S16384x16384_S16384_d1 : S16384x16384.ReducesTo [1] S16384
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.Tile.lean ====
/-
  One tile of the nearest-point search, as the kernel computes it, and the running minimum over the tiles.

  For a block of 512 points `a` (rows) and a chunk of 1024 points `b` (columns, coordinates along axis 0) the tile of
  clamped squared distances is `max (|a_r|² + |b_q|² − 2·(a_r · b_q)) 0`; its row minima are folded, chunk after chunk,
  into a running column that starts at the word of +∞. The definitions are generic in the float instance; read at the
  extended reals (the second half of this file is in TileIdeal) they are sums over the three coordinates and a minimum.
-/
import proofs.«170588_j9861244912360_1_alg».proof.Proof.Gen.KernelIdeal
import Idealize.ShloMosaic.Lib.Pipeline.FrameBody

noncomputable section

namespace Cert.KernelIdeal.Tile

open Idealize.ShloMosaic Cert.KernelIdeal Cert.KernelIdeal.Gen

variable {F : FTy → Type} [FloatOps F]

/-- The squared norms of the block's 512 points, kept as a column. -/
def rowSq (a : Vec F S512x3 .f32) : FVec F S512x1 .f32 :=
  shapeCast S512x1 (multiReduction .add [1] S512 (mulf a a) 0x00000000#32 reduces_S512x3_S512 (.inl rfl) rfl) shapeCasts_S512_S512x1

/-- The block's points in the narrow format the matrix unit multiplies. -/
def narrow (a : Vec F S512x3 .f32) : FVec F S512x3 .bf16 := truncf .bf16 a bitsLt_bf16_f32

/-- The clamped squared distances from the block's 512 points (their squared norms `a2`, their coordinates `ab`) to the
    1024 points of one chunk `b`: `max (a2 + |b|² − 2 · (ab · b)) 0`. -/
def tileDist (a2 : FVec F S512x1 .f32) (ab : FVec F S512x3 .bf16) (b : Vec F S3x1024 .f32) : FVec F S512x1024 .f32 :=
  maximumf
    (subf
      (addf (broadcastTo S512x1024 a2 broadcasts_S512x1_S512x1024)
        (broadcastTo S512x1024
          (shapeCast S1x1024
            (multiReduction .add [0] S1024
              (mulf (shapeCast S3x1024 b shapeCasts_S3x1024_S3x1024) (shapeCast S3x1024 b shapeCasts_S3x1024_S3x1024))
              0x00000000#32 reduces_S3x1024_S1024 (.inl rfl) rfl)
            shapeCasts_S1024_S1x1024)
          broadcasts_S1x1024_S512x1024))
      (mulf (broadcast S512x1024 (Scalar.ofBits .f32 0x40000000#32))
        (matmul dot_S512x3_S3x1024_S512x1024_1_0_0_1_n_n none ab
          (truncf .bf16 (shapeCast S3x1024 b shapeCasts_S3x1024_S3x1024) bitsLt_bf16_f32)
          (constant S512x1024 .f32 0x00000000#32))))
    (broadcast S512x1024 (Scalar.ofBits .f32 0x00000000#32))

/-- The minimum of each row of the tile, kept as a column. -/
def tileMin (a2 : FVec F S512x1 .f32) (ab : FVec F S512x3 .bf16) (b : Vec F S3x1024 .f32) : FVec F S512x1 .f32 :=
  shapeCast S512x1
    (multiReduction .minimumf [1] S512 (tileDist a2 ab b) 0x7F800000#32 reduces_S512x1024_S512 (.inl rfl) rfl)
    shapeCasts_S512_S512x1

/-- The running minimum after the first `n` chunks: the column of +∞, then one tile's row minima after another. -/
def minsUpTo (a2 : FVec F S512x1 .f32) (ab : FVec F S512x3 .bf16) (b : ℕ → Vec F S3x1024 .f32) : ℕ → FVec F S512x1 .f32
  | 0 => broadcast S512x1 (Scalar.ofBits .f32 0x7F800000#32)
  | n + 1 => minimumf (minsUpTo a2 ab b n) (tileMin a2 ab (b n))

/-- Chunk `j` of the resident array of 16384 points: its columns `1024·j … 1024·j + 1023` (sixteen chunks; the offset is
    taken modulo sixteen so that it is a chunk of the array for every `j`). -/
def chunk (x : Vec F S3x16384 .f32) (j : ℕ) : Vec F S3x1024 .f32 :=
  View.ld x (Rect.unit (s := S3x16384) ![0, 1024 * (j % 16)] S3x1024.size (by
    intro a
    have : j % 16 < 16 := Nat.mod_lt _ (by decide)
    match a with
    | ⟨0, _⟩ => show 0 + 3 ≤ 3; omega
    | ⟨1, _⟩ => show 1024 * (j % 16) + 1024 ≤ 16384; omega))

/-- For each of the block's 512 points, the least clamped squared distance to the 16384 points of `x`: the running
    minimum after all sixteen chunks. -/
def rowMins (a : Vec F S512x3 .f32) (x : Vec F S3x16384 .f32) : FVec F S512x1 .f32 :=
  minsUpTo (rowSq a) (narrow a) (chunk x) 16

end Cert.KernelIdeal.Tile

end
-- ==== Proof.Body0.lean ====
/-
  What the first nearest-point region (the rows of the first cloud against the second) leaves in its output block: the
  running minimum, over the sixteen chunks of the resident array, of the tile row minima (Tile) — read off the body's
  run, whose single store covers the block.
-/
import proofs.«170588_j9861244912360_1_alg».proof.Proof.Gen.KernelIdeal.Frame
import proofs.«170588_j9861244912360_1_alg».proof.Proof.Tile
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body0

open Cert.KernelIdeal Cert.KernelIdeal.Gen Cert.KernelIdeal.Tile

variable {F : FTy → Type} [FloatOps F]

theorem hz : (![0, 0] : Fin 2 → Nat) = fun _ => 0 := funext fun a => by fin_cases a <;> rfl

/-- The body, run on whole staging buffers holding a block `x0` of 512 points and the resident array `x1`, leaves in
    its output buffer the running minimum over all sixteen chunks: its one covering store's payload is the chain of
    sixteen tile minima, whichever way the printed body cuts it into pieces. -/
theorem out_eq (c : Dev nD) (i : grid0.Coords) (a1 : Memref sig .tc .vmem S512x3 .f32) (h1 : a1.IsWhole)
    (a2 : Memref sig .tc .vmem S3x16384 .f32) (h2 : a2.IsWhole) (a3 : Memref sig .tc .vmem S512x1 .f32) (h3 : a3.IsWhole)
    (x0 : Vec F S512x3 .f32) (x1 : Vec F S3x16384 .f32) :
    out0_A_2 c i a1 h1 a2 h2 a3 h3 x0 x1 = rowMins x0 x1 := by
  unfold out0_A_2
  rw [View.read_writes_eq_canon _ _ _ (cover0_A_2 c i a1 h1 a2 h2 a3 h3 x0 x1)]
  unfold kernelRun0_A
  dsimp only
  sl_unfold_words
  rw [View.canon_unit_zero hz]
  simp only [View.readAt_eq_ld, h1.read_unread, h2.read_unread, View.ld_unit_zero (S := S512x3) hz]
  rfl

/-- So after point `t` the output's staging buffer holds the running minimum of the point's block of rows against the
    resident array, both as the region found them. -/
theorem outsAt_eq (V : (c : Dev nD) → (b : Ref sig .tc) → Buf (Elt F) ((c : Thread nD τ).loc b)) (c : Dev nD) (t : Fin cfg0.N) :
    outsAt0 V c t = rowMins (iblk0 V c 0 t) (iblk0 V c 1 t) := by
  unfold outsAt0
  exact out_eq c _ _ _ _ _ _ _ _ _

end Cert.KernelIdeal.Body0

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.LibAxisFolds.lean ====
/-
  Reductions of a rank-2 array along one axis, and a trailing unit axis dropped, read at coordinates — generic in the
  extents, at the extended reals where the reductions are plain sums and folds.

  • the sum of an `[a, b]` array along its FIRST axis (from the zero word) reads, at column `q`, the sum over `k` of the
    entries `(k, q)`;
  • the minimum of an `[a, b]` array along its SECOND axis (from a word `w`) reads, at row `r`, the fold of `min` from
    `w`'s value over the entries `(r, q)`;
  • an `[a, 1]` column cast to an `[a]` vector reads, at `i`, the column's entry `(i, 0)`.
-/
import Idealize.ShloMosaic.Lib.Pipeline.Value
import Idealize.ShloMosaic.Lib.ValueIdx
import Idealize.ShloMosaic.PureOps.Ideal.Laws

namespace Cert.AxisFolds

open Idealize.ShloMosaic Idealize.ShloMosaic.ValueIdx

variable {α : Type}

/-- The sum of an `[a, b]` array along its first axis (started from the zero word) reads, at column `q`, the sum over
    `k` of the entries `(k, q)`. -/
theorem colSum_apply {a b : ℕ} (src : FVec Ideal ⟨2, ![a, b]⟩ .f32) (h : (⟨2, ![a, b]⟩ : Shape).Reduces [0] ⟨1, ![b]⟩)
    (hφ : FKind.Formats FTy.f32) (hacc : (0x00000000#32 : BitVec 32) = 0x00000000#32) (q : Fin b) :
    multiReduction (F := Ideal) .add [0] ⟨1, ![b]⟩ src 0x00000000#32 h hφ hacc (ix1 q) = ∑ k : Fin a, src (ix2 k q) :=
  (Ideal.multiReduction_add_single src 0x00000000#32 h hφ hacc (ix1 q)).trans
    (Finset.sum_congr rfl fun k _ => congrArg src (funext fun ax => Fin.ext (by
      match ax with
      | ⟨0, _⟩ => rfl
      | ⟨1, _⟩ => rfl)))

/-- The minimum of an `[a, b]` array along its second axis (started from the word `w`) reads, at row `r`, the fold of
    `min` from `w`'s value over the entries `(r, q)`: whatever the order, `min` being commutative and associative. -/
theorem rowMin_apply {a b : ℕ} (src : FVec Ideal ⟨2, ![a, b]⟩ .f32) (w : BitVec 32)
    (h : (⟨2, ![a, b]⟩ : Shape).Reduces [1] ⟨1, ![a]⟩)
    (hφ : FKind.Formats FTy.f32) (hacc : w = FKind.minimumf.neutral .f32 hφ) (r : Fin a) :
    multiReduction (F := Ideal) .minimumf [1] ⟨1, ![a]⟩ src w h hφ hacc (ix1 r)
      = (Finset.univ : Finset (Fin b)).fold min (Ideal.ofBits .f32 w) (fun q => src (ix2 r q)) := by
  rw [multiReduction_minimumf_eq_fold]
  refine (h.fold_filter_drop_single _ _ src (ix1 r)).trans ?_
  refine congrArg (fun f => (Finset.univ : Finset (Fin b)).fold min (Ideal.ofBits .f32 w) f) (funext fun q => ?_)
  exact congrArg src (funext fun ax => Fin.ext (by
    match ax with
    | ⟨0, _⟩ => rfl
    | ⟨1, _⟩ => rfl))

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.AxisFolds
-- ==== Proof.TileIdeal.lean ====
/-
  The tile of clamped squared distances and the running minimum, read at the extended reals.

  At row `r` of the block and column `m` of the resident array the clamped squared distance is
  `max ((∑ₖ a(r,k)²) + (∑ₖ x(k,m)²) − 2 · ∑ₖ a(r,k)·x(k,m)) 0`, the three sums over the three coordinates; a tile's row
  minimum is the fold of `min` over the tile's 1024 columns from the word of +∞, and the running minimum over the sixteen
  chunks is the fold of `min` over all 16384 columns: a number is below a fold of `min` exactly when it is below the
  start and below every entry, and every column `m` lies in exactly one chunk, `m = 1024·(m / 1024) + m % 1024`.
-/
import proofs.«170588_j9861244912360_1_alg».proof.Proof.Tile
import proofs.«170588_j9861244912360_1_alg».proof.Proof.LibKeepdims
import proofs.«170588_j9861244912360_1_alg».proof.Proof.LibAxisFolds
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen Cert.Keepdims Cert.AxisFolds

/-- The three float words of the computation, as extended reals: the start of every minimum, the factor of the cross
    term, the clamp. They are never evaluated: both programs use the same words. -/
abbrev wInf : EReal := Ideal.ofBits .f32 0x7F800000#32
abbrev wTwo : EReal := Ideal.ofBits .f32 0x40000000#32
abbrev wZero : EReal := Ideal.ofBits .f32 0x00000000#32

/-! ## The cross term: the matrix product into the zero splat, read at `(r, q)` -/

theorem lhs_cross_0 (i : S512x1024.Idx) (q : dot_S512x3_S3x1024_S512x1024_1_0_0_1_n_n.contr.Idx) :
    (dot_S512x3_S3x1024_S512x1024_1_0_0_1_n_n.lhsIdx i q 0).val = (i 0).val := by
  unfold DotDims.lhsIdx
  rw [dif_neg (show ¬(0 : Fin S512x3.rank) ∈ dot_S512x3_S3x1024_S512x1024_1_0_0_1_n_n.lhsBatch by decide), dif_pos (show (0 : Fin S512x3.rank) ∈ dot_S512x3_S3x1024_S512x1024_1_0_0_1_n_n.lhsNonContracting by decide)]
  rfl
theorem lhs_cross_1 (i : S512x1024.Idx) (q : dot_S512x3_S3x1024_S512x1024_1_0_0_1_n_n.contr.Idx) :
    (dot_S512x3_S3x1024_S512x1024_1_0_0_1_n_n.lhsIdx i q 1).val = (q ⟨0, by decide⟩).val :=
  dot_S512x3_S3x1024_S512x1024_1_0_0_1_n_n.lhsIdx_val_of_single rfl i q
theorem rhs_cross_0 (i : S512x1024.Idx) (q : dot_S512x3_S3x1024_S512x1024_1_0_0_1_n_n.contr.Idx) :
    (dot_S512x3_S3x1024_S512x1024_1_0_0_1_n_n.rhsIdx i q 0).val = (q ⟨0, by decide⟩).val :=
  dot_S512x3_S3x1024_S512x1024_1_0_0_1_n_n.rhsIdx_val_of_single rfl i q
theorem rhs_cross_1 (i : S512x1024.Idx) (q : dot_S512x3_S3x1024_S512x1024_1_0_0_1_n_n.contr.Idx) :
    (dot_S512x3_S3x1024_S512x1024_1_0_0_1_n_n.rhsIdx i q 1).val = (i 1).val := by
  unfold DotDims.rhsIdx
  rw [dif_neg (show ¬(1 : Fin S3x1024.rank) ∈ dot_S512x3_S3x1024_S512x1024_1_0_0_1_n_n.rhsBatch by decide), dif_pos (show (1 : Fin S3x1024.rank) ∈ dot_S512x3_S3x1024_S512x1024_1_0_0_1_n_n.rhsNonContracting by decide)]
  rfl

/-- The product of the block `[512, 3]` with a chunk `[3, 1024]` into the zero splat is, at `(r, q)`, the inner product
    of row `r` with column `q` over the three coordinates. -/
theorem cross_apply (ab : FVec Ideal S512x3 .bf16) (bt : FVec Ideal S3x1024 .bf16) (r : Fin 512) (q : Fin 1024) :
    matmul dot_S512x3_S3x1024_S512x1024_1_0_0_1_n_n none ab bt (constant S512x1024 .f32 0x00000000#32) (ix2 r q)
      = ∑ k : Fin 3, ab (ix2 r k) * bt (ix2 k q) := by
  simp only [matmul]
  rw [Ideal.matmul_constant_zero_apply, ← Equiv.sum_comp (contrEquiv1 dot_S512x3_S3x1024_S512x1024_1_0_0_1_n_n 3 rfl rfl).symm]
  refine Finset.sum_congr rfl fun k _ => ?_
  have hk := contrEquiv1_symm_val dot_S512x3_S3x1024_S512x1024_1_0_0_1_n_n 3 rfl rfl k
  have el : dot_S512x3_S3x1024_S512x1024_1_0_0_1_n_n.lhsIdx (ix2 r q) ((contrEquiv1 dot_S512x3_S3x1024_S512x1024_1_0_0_1_n_n 3 rfl rfl).symm k) = ix2 r k := funext fun a => Fin.ext (by
    match a with
    | ⟨0, _⟩ => exact lhs_cross_0 _ _
    | ⟨1, _⟩ => exact (lhs_cross_1 _ _).trans hk)
  have er : dot_S512x3_S3x1024_S512x1024_1_0_0_1_n_n.rhsIdx (ix2 r q) ((contrEquiv1 dot_S512x3_S3x1024_S512x1024_1_0_0_1_n_n 3 rfl rfl).symm k) = ix2 k q := funext fun a => Fin.ext (by
    match a with
    | ⟨0, _⟩ => exact (rhs_cross_0 _ _).trans hk
    | ⟨1, _⟩ => exact rhs_cross_1 _ _)
  rw [el, er]

/-! ## The tile and its row minima -/

/-- The block's squared norms: row `r` of the column is `∑ₖ a(r,k)²`. -/
theorem rowSq_apply (a : Vec Ideal S512x3 .f32) (r : Fin 512) :
    rowSq a (ix2 r (0 : Fin 1)) = ∑ k : Fin 3, a (ix2 r k) * a (ix2 r k) := by
  unfold rowSq
  refine (shapeCast_a_a1_apply (a := 512) _ shapeCasts_S512_S512x1 r 0).trans ?_
  exact rowSum_apply (a := 512) (b := 3) (mulf a a) reduces_S512x3_S512 (.inl rfl) rfl r

/-- The tile at `(r, q)`: the clamped squared distance from the block's row `r` (squared norm `a2 (r, 0)`,
    coordinates `ab (r, ·)`) to the chunk's column `q`. -/
theorem tileDist_apply (a2 : FVec Ideal S512x1 .f32) (ab : FVec Ideal S512x3 .bf16) (b : Vec Ideal S3x1024 .f32)
    (r : Fin 512) (q : Fin 1024) :
    tileDist a2 ab b (ix2 r q)
      = max (a2 (ix2 r (0 : Fin 1)) + (∑ k : Fin 3, b (ix2 k q) * b (ix2 k q)) - wTwo * ∑ k : Fin 3, ab (ix2 r k) * b (ix2 k q)) wZero := by
  unfold tileDist
  rw [shapeCast_self b shapeCasts_S3x1024_S3x1024]
  show max (broadcastTo S512x1024 a2 broadcasts_S512x1_S512x1024 (ix2 r q)
      + broadcastTo S512x1024 (shapeCast S1x1024 (multiReduction .add [0] S1024 (mulf b b) 0x00000000#32 reduces_S3x1024_S1024 (.inl rfl) rfl) shapeCasts_S1024_S1x1024) broadcasts_S1x1024_S512x1024 (ix2 r q)
      - wTwo * matmul dot_S512x3_S3x1024_S512x1024_1_0_0_1_n_n none ab (truncf .bf16 b bitsLt_bf16_f32) (constant S512x1024 .f32 0x00000000#32) (ix2 r q)) wZero = _
  rw [broadcastTo_a1_ab_apply (a := 512) (b := 1024) a2 broadcasts_S512x1_S512x1024 r q,
    broadcastTo_1b_ab_apply (a := 512) (b := 1024) _ broadcasts_S1x1024_S512x1024 r q,
    shapeCast_a_1a_apply (a := 1024) _ shapeCasts_S1024_S1x1024 0 q,
    colSum_apply (a := 3) (b := 1024) (mulf b b) reduces_S3x1024_S1024 (.inl rfl) rfl q,
    cross_apply ab (truncf .bf16 b bitsLt_bf16_f32) r q]
  rfl

/-- A number is below a tile's row minimum exactly when it is below the start and below every entry of the row. -/
theorem le_tileMin_iff (a2 : FVec Ideal S512x1 .f32) (ab : FVec Ideal S512x3 .bf16) (b : Vec Ideal S3x1024 .f32)
    (r : Fin 512) (c : EReal) :
    c ≤ tileMin a2 ab b (ix2 r (0 : Fin 1)) ↔ c ≤ wInf ∧ ∀ q : Fin 1024, c ≤ tileDist a2 ab b (ix2 r q) := by
  unfold tileMin
  rw [shapeCast_a_a1_apply (a := 512) _ shapeCasts_S512_S512x1 r 0,
    rowMin_apply (a := 512) (b := 1024) (tileDist a2 ab b) 0x7F800000#32 reduces_S512x1024_S512 (.inl rfl) rfl r,
    Finset.le_fold_min]
  exact and_congr Iff.rfl ⟨fun h q => h q (Finset.mem_univ q), fun h q _ => h q⟩

/-- A number is below the running minimum after `n` chunks exactly when it is below the start and below every entry of
    the row in each of the `n` tiles. -/
theorem le_minsUpTo_iff (a2 : FVec Ideal S512x1 .f32) (ab : FVec Ideal S512x3 .bf16) (b : ℕ → Vec Ideal S3x1024 .f32)
    (r : Fin 512) (c : EReal) : ∀ n : ℕ,
    c ≤ minsUpTo a2 ab b n (ix2 r (0 : Fin 1)) ↔ c ≤ wInf ∧ ∀ j < n, ∀ q : Fin 1024, c ≤ tileDist a2 ab (b j) (ix2 r q)
  | 0 => by
    show c ≤ wInf ↔ _
    exact ⟨fun h => ⟨h, fun j hj => absurd hj (Nat.not_lt_zero j)⟩, fun h => h.1⟩
  | n + 1 => by
    show c ≤ min (minsUpTo a2 ab b n (ix2 r (0 : Fin 1))) (tileMin a2 ab (b n) (ix2 r (0 : Fin 1))) ↔ _
    rw [le_min_iff, le_minsUpTo_iff a2 ab b r c n, le_tileMin_iff]
    constructor
    · rintro ⟨⟨hI, h⟩, -, h'⟩
      refine ⟨hI, fun j hj q => ?_⟩
      rcases Nat.lt_succ_iff_lt_or_eq.mp hj with hj | rfl
      · exact h j hj q
      · exact h' q
    · rintro ⟨hI, h⟩
      exact ⟨⟨hI, fun j hj q => h j (Nat.lt_succ_of_lt hj) q⟩, hI, fun q => h n (Nat.lt_succ_self n) q⟩

/-! ## The sixteen chunks are the resident array -/

/-- The clamped squared distance from the block's row `r` to the resident array's column `m`. -/
def dist (a : Vec Ideal S512x3 .f32) (x : Vec Ideal S3x16384 .f32) (r : Fin 512) (m : Fin 16384) : EReal :=
  max ((∑ k : Fin 3, a (ix2 r k) * a (ix2 r k)) + (∑ k : Fin 3, x (ix2 k m) * x (ix2 k m))
      - wTwo * ∑ k : Fin 3, a (ix2 r k) * x (ix2 k m)) wZero

/-- Chunk `j` at `(k, q)` is the resident array at `(k, 1024·(j % 16) + q)`. -/
theorem chunk_apply (x : Vec Ideal S3x16384 .f32) (j : ℕ) (k : Fin 3) (q : Fin 1024) (m : Fin 16384)
    (hm : m.val = 1024 * (j % 16) + q.val) : chunk x j (ix2 k q) = x (ix2 k m) := by
  unfold chunk View.ld
  refine congrArg x (funext fun ax => Fin.ext ?_)
  match ax with
  | ⟨0, _⟩ => show 0 + 1 * k.val = k.val; omega
  | ⟨1, _⟩ => show 1024 * (j % 16) + 1 * q.val = m.val; omega

/-- The tile of chunk `j` at `(r, q)` is the distance to column `1024·(j % 16) + q`. -/
theorem tileDist_chunk (a : Vec Ideal S512x3 .f32) (x : Vec Ideal S3x16384 .f32) (j : ℕ) (r : Fin 512) (q : Fin 1024)
    (m : Fin 16384) (hm : m.val = 1024 * (j % 16) + q.val) :
    tileDist (rowSq a) (narrow a) (chunk x j) (ix2 r q) = dist a x r m := by
  rw [tileDist_apply, rowSq_apply]
  unfold dist
  simp only [chunk_apply x j _ q m hm]
  rfl

/-- Each of the block's rows ends at the least clamped squared distance to the 16384 columns of the resident array: the
    fold of `min` from the word of +∞ over all of them. -/
theorem rowMins_apply (a : Vec Ideal S512x3 .f32) (x : Vec Ideal S3x16384 .f32) (r : Fin 512) :
    rowMins a x (ix2 r (0 : Fin 1)) = (Finset.univ : Finset (Fin 16384)).fold min wInf (fun m => dist a x r m) := by
  refine eq_of_forall_le_iff fun c => ?_
  unfold rowMins
  rw [le_minsUpTo_iff, Finset.le_fold_min]
  refine and_congr Iff.rfl ⟨fun h m _ => ?_, fun h j hj q => ?_⟩
  · have hm := m.isLt
    have hj : m.val / 1024 < 16 := by omega
    have e := tileDist_chunk a x (m.val / 1024) r ⟨m.val % 1024, Nat.mod_lt _ (by decide)⟩ m (by
      show m.val = 1024 * (m.val / 1024 % 16) + m.val % 1024
      rw [Nat.mod_eq_of_lt hj]; omega)
    rw [← e]
    exact h _ hj _
  · have hq := q.isLt
    have e := tileDist_chunk a x j r q ⟨1024 * j + q.val, by omega⟩ (by
      show 1024 * j + q.val = 1024 * (j % 16) + q.val
      rw [Nat.mod_eq_of_lt hj])
    rw [e]
    exact h _ (Finset.mem_univ _)

/-! ## The specification of one region: every point's least clamped squared distance to the other cloud -/

/-- The least clamped squared distance from point `n` of the cloud `A` (one point per row) to the points of the cloud
    `X` (one point per column): the fold of `min`, from the word of +∞, over the 16384 columns. -/
def nearest (A : Vec Ideal S16384x3 .f32) (X : Vec Ideal S3x16384 .f32) (n : Fin 16384) : EReal :=
  (Finset.univ : Finset (Fin 16384)).fold min wInf fun m =>
    max ((∑ k : Fin 3, A (ix2 n k) * A (ix2 n k)) + (∑ k : Fin 3, X (ix2 k m) * X (ix2 k m))
      - wTwo * ∑ k : Fin 3, A (ix2 n k) * X (ix2 k m)) wZero

/-- The same as a column `[16384, 1]`, the shape a region's result array has. -/
def nearestCol (A : Vec Ideal S16384x3 .f32) (X : Vec Ideal S3x16384 .f32) : Vec Ideal S16384x1 .f32 :=
  fun i => nearest A X ⟨(i 0).val, idx2_lt0 i⟩

/-- A block whose row `r` is row `n` of `A`, against a resident array that is `X`: the running minimum at row `r` is
    point `n`'s least distance. -/
theorem rowMins_eq_nearest (a : Vec Ideal S512x3 .f32) (x : Vec Ideal S3x16384 .f32) (A : Vec Ideal S16384x3 .f32)
    (X : Vec Ideal S3x16384 .f32) (r : Fin 512) (n : Fin 16384) (ha : ∀ k : Fin 3, a (ix2 r k) = A (ix2 n k))
    (hx : ∀ (k : Fin 3) (m : Fin 16384), x (ix2 k m) = X (ix2 k m)) :
    rowMins a x (ix2 r (0 : Fin 1)) = nearest A X n := by
  rw [rowMins_apply]
  unfold nearest dist
  simp only [ha, hx]

end Cert.KernelIdeal.Tile

end
-- ==== Proof.Region0.lean ====
/-
  The result array of the first nearest-point region, at the extended reals: entry `(n, 0)` is the least clamped squared
  distance from row `n` of the region's first operand `A` (a cloud, one point per row) to the columns of its second
  operand `X` (the other cloud, transposed) — `Tile.nearestCol A X`.

  Point `t` of the grid reads rows `512·t … 512·t + 511` of `A` and all of `X`, and writes back rows `512·t …` of the
  result; its body leaves the running minimum (Body0), which at the extended reals is the fold of `min` over all columns
  (TileIdeal). The 32 blocks tile the result array, so it ends holding `nearestCol A X` everywhere.
-/
import proofs.«170588_j9861244912360_1_alg».proof.Proof.Body0
import proofs.«170588_j9861244912360_1_alg».proof.Proof.TileIdeal

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.Tile

variable (V : (c : Dev nD) → (b : Ref sig .tc) → Buf (Elt Ideal) ((c : Thread nD τ).loc b))

/-- The region's two operands and the two input blocks of a point, at their literal shapes. -/
abbrev Aarr (c : Dev nD) : Vec Ideal S16384x3 .f32 := V c main_arg0
abbrev Xarr (c : Dev nD) : Vec Ideal S3x16384 .f32 := V c main_v0
abbrev ablk (c : Dev nD) (t : Fin cfg0.N) : Vec Ideal S512x3 .f32 := iblk0 V c 0 t
abbrev xblk (c : Dev nD) (t : Fin cfg0.N) : Vec Ideal S3x16384 .f32 := iblk0 V c 1 t

/-- The printed index maps, decided over the grid: the row blocks move with the point, the resident array does not. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of point `t`'s block of `A` is row `512·t + r` of `A`. -/
theorem ablk_apply (c : Dev nD) (t : Fin cfg0.N) (r : Fin 512) (k : Fin 3) (n : Fin 16384) (hn : n.val = 512 * t.val + r.val) :
    ablk V c t (ix2 r k) = Aarr V c (ix2 n k) := by
  show V c main_arg0 (((cfg0.win 0).blk t).view.emb (ix2 r k)) = V c main_arg0 (ix2 n k)
  refine congrArg (V c main_arg0) (funext fun a => Fin.ext ?_)
  obtain ⟨e0, e1, -⟩ := idx_facts t
  match a with
  | ⟨0, _⟩ => show win0_0.index t (0 : Fin 2) * 512 + 1 * r.val = n.val; omega
  | ⟨1, _⟩ => show win0_0.index t (1 : Fin 2) * 3 + 1 * k.val = k.val; omega

/-- Every point's block of `X` is all of `X`. -/
theorem xblk_apply (c : Dev nD) (t : Fin cfg0.N) (k : Fin 3) (m : Fin 16384) :
    xblk V c t (ix2 k m) = Xarr V c (ix2 k m) := by
  show V c main_v0 (((cfg0.win 1).blk t).view.emb (ix2 k m)) = V c main_v0 (ix2 k m)
  refine congrArg (V c main_v0) (funext fun a => Fin.ext ?_)
  obtain ⟨-, -, e2, e3, -⟩ := idx_facts t
  match a with
  | ⟨0, _⟩ => show win0_1.index t (0 : Fin 2) * 3 + 1 * k.val = k.val; omega
  | ⟨1, _⟩ => show win0_1.index t (1 : Fin 2) * 16384 + 1 * m.val = m.val; omega

/-- An array of the result's shape read through point `t`'s block: entry `y` of the block is the array's entry at the
    block's placement of `y`. -/
theorem read_blk (G : Vec Ideal S16384x1 .f32) (t : Fin cfg0.N) (y : ((cfg0.win 2).xblock (grid0.coords t)).Idx) :
    ((cfg0.win 2).blk t).view.read (Elt Ideal) G y = G (((cfg0.win 2).blk t).view.emb y) := rfl

/-- WHAT POINT `t` WRITES BACK is block `t` of `nearestCol A X`. -/
theorem flushed_eq (c : Dev nD) (t : Fin cfg0.N) :
    (dat0 V c).flushed 2 t = ((cfg0.win 2).blk t).view.read (Elt Ideal) (nearestCol (Aarr V c) (Xarr V c)) := by
  show (cfg0.win 2).cut (grid0.coords t) ((dat0 V c).after 2 t) = _
  rw [after0_2, Body0.outsAt_eq]
  obtain ⟨-, -, -, -, e4, e5⟩ := idx_facts t
  have hN : cfg0.N = 32 := N_0
  have ht := t.isLt
  funext y
  refine Eq.trans ?_ (read_blk (nearestCol (Aarr V c) (Xarr V c)) t y).symm
  show rowMins (ablk V c t) (xblk V c t) ((cfg0.win 2).xinj (grid0.coords t) y) = _
  have hy0 : (y 0).val < 512 := (y 0).isLt
  have hy1 : (y 1).val < 1 := (y 1).isLt
  have hy : (cfg0.win 2).xinj (grid0.coords t) y = ix2 (⟨(y 0).val, hy0⟩ : Fin 512) (0 : Fin 1) := funext fun a => Fin.ext (by
    match a with
    | ⟨0, _⟩ => rfl
    | ⟨1, _⟩ => show (y 1).val = 0; omega)
  rw [hy]
  unfold nearestCol
  refine rowMins_eq_nearest (ablk V c t) (xblk V c t) (Aarr V c) (Xarr V c) ⟨(y 0).val, hy0⟩ _ (fun k => ablk_apply V c t _ k _ ?_) (xblk_apply V c t)
  show win0_2.index t (0 : Fin 2) * 512 + 1 * (y 0).val = 512 * t.val + (y 0).val
  omega

/-- An index of the result array is in point `t`'s block iff each coordinate is in the block's range on its axis. -/
theorem mem_blk (t : Fin cfg0.N) (i : S16384x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v1).slice (win0_2.rect t)).set ↔ _
  rw [View.set_slice_whole, Rect.mem_set_unit]
  exact Iff.rfl

/-- THE RESULT ARRAY after the region: `nearestCol A X`; row `n` is covered by the block of point `n / 512`. -/
theorem final (c : Dev nD) : (dat0 V c).arrAt 2 cfg0.N = nearestCol (Aarr V c) (Xarr V c) :=
  (dat0 V c).arrAt_eq_of_cover 2 (nearestCol (Aarr V c) (Xarr V c)) (fun t _ => flushed_eq V c t) fun i => by
    have hi0 : (i 0).val < 16384 := (i 0).isLt
    have hi1 : (i 1).val < 1 := (i 1).isLt
    have hN : cfg0.N = 32 := N_0
    let t : Fin cfg0.N := ⟨(i 0).val / 512, by omega⟩
    obtain ⟨-, -, -, -, e4, e5⟩ := idx_facts t
    have ht : t.val = (i 0).val / 512 := rfl
    refine ⟨t, flush0_2 t, ?_⟩
    rw [mem_blk]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 1 ≤ (i 1).val ∧ (i 1).val < win0_2.index t (1 : Fin 2) * 1 + 1; omega

end Cert.KernelIdeal.Region0

end
-- ==== Proof.Body1.lean ====
/-
  What the second nearest-point region (the rows of the second cloud against the first) leaves in its output block: the
  running minimum, over the sixteen chunks of the resident array, of the tile row minima (Tile) — read off the body's
  run, whose single store covers the block.
-/
import proofs.«170588_j9861244912360_1_alg».proof.Proof.Gen.KernelIdeal.Frame
import proofs.«170588_j9861244912360_1_alg».proof.Proof.Tile
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body1

open Cert.KernelIdeal Cert.KernelIdeal.Gen Cert.KernelIdeal.Tile

variable {F : FTy → Type} [FloatOps F]

theorem hz : (![0, 0] : Fin 2 → Nat) = fun _ => 0 := funext fun a => by fin_cases a <;> rfl

/-- The body, run on whole staging buffers holding a block `x0` of 512 points and the resident array `x1`, leaves in
    its output buffer the running minimum over all sixteen chunks: its one covering store's payload is the chain of
    sixteen tile minima, whichever way the printed body cuts it into pieces. -/
theorem out_eq (c : Dev nD) (i : grid1.Coords) (a1 : Memref sig .tc .vmem S512x3 .f32) (h1 : a1.IsWhole)
    (a2 : Memref sig .tc .vmem S3x16384 .f32) (h2 : a2.IsWhole) (a3 : Memref sig .tc .vmem S512x1 .f32) (h3 : a3.IsWhole)
    (x0 : Vec F S512x3 .f32) (x1 : Vec F S3x16384 .f32) :
    out1_A_2 c i a1 h1 a2 h2 a3 h3 x0 x1 = rowMins x0 x1 := by
  unfold out1_A_2
  rw [View.read_writes_eq_canon _ _ _ (cover1_A_2 c i a1 h1 a2 h2 a3 h3 x0 x1)]
  unfold kernelRun1_A
  dsimp only
  sl_unfold_words
  rw [View.canon_unit_zero hz]
  simp only [View.readAt_eq_ld, h1.read_unread, h2.read_unread, View.ld_unit_zero (S := S512x3) hz]
  rfl

/-- So after point `t` the output's staging buffer holds the running minimum of the point's block of rows against the
    resident array, both as the region found them. -/
theorem outsAt_eq (V : (c : Dev nD) → (b : Ref sig .tc) → Buf (Elt F) ((c : Thread nD τ).loc b)) (c : Dev nD) (t : Fin cfg1.N) :
    outsAt1 V c t = rowMins (iblk1 V c 0 t) (iblk1 V c 1 t) := by
  unfold outsAt1
  exact out_eq c _ _ _ _ _ _ _ _ _

end Cert.KernelIdeal.Body1

end
-- ==== Proof.Region1.lean ====
/-
  The result array of the second nearest-point region, at the extended reals: entry `(n, 0)` is the least clamped squared
  distance from row `n` of the region's first operand `A` (a cloud, one point per row) to the columns of its second
  operand `X` (the other cloud, transposed) — `Tile.nearestCol A X`.

  Point `t` of the grid reads rows `512·t … 512·t + 511` of `A` and all of `X`, and writes back rows `512·t …` of the
  result; its body leaves the running minimum (Body1), which at the extended reals is the fold of `min` over all columns
  (TileIdeal). The 32 blocks tile the result array, so it ends holding `nearestCol A X` everywhere.
-/
import proofs.«170588_j9861244912360_1_alg».proof.Proof.Body1
import proofs.«170588_j9861244912360_1_alg».proof.Proof.TileIdeal

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.KernelIdeal.Tile

variable (V : (c : Dev nD) → (b : Ref sig .tc) → Buf (Elt Ideal) ((c : Thread nD τ).loc b))

/-- The region's two operands and the two input blocks of a point, at their literal shapes. -/
abbrev Aarr (c : Dev nD) : Vec Ideal S16384x3 .f32 := V c main_arg1
abbrev Xarr (c : Dev nD) : Vec Ideal S3x16384 .f32 := V c main_v3
abbrev ablk (c : Dev nD) (t : Fin cfg1.N) : Vec Ideal S512x3 .f32 := iblk1 V c 0 t
abbrev xblk (c : Dev nD) (t : Fin cfg1.N) : Vec Ideal S3x16384 .f32 := iblk1 V c 1 t

/-- The printed index maps, decided over the grid: the row blocks move with the point, the resident array does not. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of point `t`'s block of `A` is row `512·t + r` of `A`. -/
theorem ablk_apply (c : Dev nD) (t : Fin cfg1.N) (r : Fin 512) (k : Fin 3) (n : Fin 16384) (hn : n.val = 512 * t.val + r.val) :
    ablk V c t (ix2 r k) = Aarr V c (ix2 n k) := by
  show V c main_arg1 (((cfg1.win 0).blk t).view.emb (ix2 r k)) = V c main_arg1 (ix2 n k)
  refine congrArg (V c main_arg1) (funext fun a => Fin.ext ?_)
  obtain ⟨e0, e1, -⟩ := idx_facts t
  match a with
  | ⟨0, _⟩ => show win1_0.index t (0 : Fin 2) * 512 + 1 * r.val = n.val; omega
  | ⟨1, _⟩ => show win1_0.index t (1 : Fin 2) * 3 + 1 * k.val = k.val; omega

/-- Every point's block of `X` is all of `X`. -/
theorem xblk_apply (c : Dev nD) (t : Fin cfg1.N) (k : Fin 3) (m : Fin 16384) :
    xblk V c t (ix2 k m) = Xarr V c (ix2 k m) := by
  show V c main_v3 (((cfg1.win 1).blk t).view.emb (ix2 k m)) = V c main_v3 (ix2 k m)
  refine congrArg (V c main_v3) (funext fun a => Fin.ext ?_)
  obtain ⟨-, -, e2, e3, -⟩ := idx_facts t
  match a with
  | ⟨0, _⟩ => show win1_1.index t (0 : Fin 2) * 3 + 1 * k.val = k.val; omega
  | ⟨1, _⟩ => show win1_1.index t (1 : Fin 2) * 16384 + 1 * m.val = m.val; omega

/-- An array of the result's shape read through point `t`'s block: entry `y` of the block is the array's entry at the
    block's placement of `y`. -/
theorem read_blk (G : Vec Ideal S16384x1 .f32) (t : Fin cfg1.N) (y : ((cfg1.win 2).xblock (grid1.coords t)).Idx) :
    ((cfg1.win 2).blk t).view.read (Elt Ideal) G y = G (((cfg1.win 2).blk t).view.emb y) := rfl

/-- WHAT POINT `t` WRITES BACK is block `t` of `nearestCol A X`. -/
theorem flushed_eq (c : Dev nD) (t : Fin cfg1.N) :
    (dat1 V c).flushed 2 t = ((cfg1.win 2).blk t).view.read (Elt Ideal) (nearestCol (Aarr V c) (Xarr V c)) := by
  show (cfg1.win 2).cut (grid1.coords t) ((dat1 V c).after 2 t) = _
  rw [after1_2, Body1.outsAt_eq]
  obtain ⟨-, -, -, -, e4, e5⟩ := idx_facts t
  have hN : cfg1.N = 32 := N_1
  have ht := t.isLt
  funext y
  refine Eq.trans ?_ (read_blk (nearestCol (Aarr V c) (Xarr V c)) t y).symm
  show rowMins (ablk V c t) (xblk V c t) ((cfg1.win 2).xinj (grid1.coords t) y) = _
  have hy0 : (y 0).val < 512 := (y 0).isLt
  have hy1 : (y 1).val < 1 := (y 1).isLt
  have hy : (cfg1.win 2).xinj (grid1.coords t) y = ix2 (⟨(y 0).val, hy0⟩ : Fin 512) (0 : Fin 1) := funext fun a => Fin.ext (by
    match a with
    | ⟨0, _⟩ => rfl
    | ⟨1, _⟩ => show (y 1).val = 0; omega)
  rw [hy]
  unfold nearestCol
  refine rowMins_eq_nearest (ablk V c t) (xblk V c t) (Aarr V c) (Xarr V c) ⟨(y 0).val, hy0⟩ _ (fun k => ablk_apply V c t _ k _ ?_) (xblk_apply V c t)
  show win1_2.index t (0 : Fin 2) * 512 + 1 * (y 0).val = 512 * t.val + (y 0).val
  omega

/-- An index of the result array is in point `t`'s block iff each coordinate is in the block's range on its axis. -/
theorem mem_blk (t : Fin cfg1.N) (i : S16384x1.Idx) :
    i ∈ ((cfg1.win 2).blk t).view.set ↔ ∀ a : Fin 2, win1_2.index t a * S512x1.size a ≤ (i a).val ∧ (i a).val < win1_2.index t a * S512x1.size a + S512x1.size a := by
  show i ∈ ((View.whole main_v4).slice (win1_2.rect t)).set ↔ _
  rw [View.set_slice_whole, Rect.mem_set_unit]
  exact Iff.rfl

/-- THE RESULT ARRAY after the region: `nearestCol A X`; row `n` is covered by the block of point `n / 512`. -/
theorem final (c : Dev nD) : (dat1 V c).arrAt 2 cfg1.N = nearestCol (Aarr V c) (Xarr V c) :=
  (dat1 V c).arrAt_eq_of_cover 2 (nearestCol (Aarr V c) (Xarr V c)) (fun t _ => flushed_eq V c t) fun i => by
    have hi0 : (i 0).val < 16384 := (i 0).isLt
    have hi1 : (i 1).val < 1 := (i 1).isLt
    have hN : cfg1.N = 32 := N_1
    let t : Fin cfg1.N := ⟨(i 0).val / 512, by omega⟩
    obtain ⟨-, -, -, -, e4, e5⟩ := idx_facts t
    have ht : t.val = (i 0).val / 512 := rfl
    refine ⟨t, flush1_2 t, ?_⟩
    rw [mem_blk]
    intro a
    match a with
    | ⟨0, _⟩ => show win1_2.index t (0 : Fin 2) * 512 ≤ (i 0).val ∧ (i 0).val < win1_2.index t (0 : Fin 2) * 512 + 512; omega
    | ⟨1, _⟩ => show win1_2.index t (1 : Fin 2) * 1 ≤ (i 1).val ∧ (i 1).val < win1_2.index t (1 : Fin 2) * 1 + 1; omega

end Cert.KernelIdeal.Region1

end
-- ==== Proof.KernelValue.lean ====
/-
  The idealized kernel's result, as a function of the two launch arrays.

  @main transposes the second cloud, runs the first nearest-point region (rows of the first cloud against the transposed
  second), flattens its column, transposes the first cloud, runs the second region (rows of the second cloud against the
  transposed first), flattens that column, and returns the mean of the second column plus the mean of the first. The
  buffer contents at every boundary of that walk are a fold from the launch memory (the generated frame's `W0 … W5`);
  here the fold is read at the result buffer: each region's array is `Tile.nearestCol` of its operands (Region0,
  Region1), each operand walks back to a launch array or its transpose, and the host tail is `mean ∘ flat` twice and a sum.
-/
import proofs.«170588_j9861244912360_1_alg».proof.Proof.Region0
import proofs.«170588_j9861244912360_1_alg».proof.Proof.Region1
import proofs.«170588_j9861244912360_1_alg».proof.Proof.KernelRun
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Value

open Cert.KernelIdeal Cert.KernelIdeal.Gen Cert.KernelIdeal.Tile

/-- A column `[16384, 1]` flattened to a vector `[16384]`. -/
def flat (v : Vec Ideal S16384x1 .f32) : Vec Ideal S16384 .f32 := shapeCast S16384 v shapeCasts_S16384x1_S16384

/-- The mean of 16384 entries as the host computes it: their sum from the zero word, divided by the word of 16384. -/
def mean (v : Vec Ideal S16384 .f32) : Vec Ideal S_ .f32 :=
  Host.divf (F := Ideal) (Host.reduceAdd (F := Ideal) v (constant S_ .f32 0x00000000#32) reducesTo_S16384_S_d0 h_S_)
    (constant S_ .f32 0x46800000#32)

/-- A cloud `[16384, 3]` transposed to `[3, 16384]`. -/
def transposed (x : Vec Ideal S16384x3 .f32) : Vec Ideal S3x16384 .f32 :=
  transpose S3x16384 [1, 0] x transposes_S16384x3_S3x16384_1_0

/-- The Chamfer-style sum the kernel returns, of the two launch clouds `p` (first argument) and `q` (second): the mean
    over `q`'s points of their least distance to `p`, plus the mean over `p`'s points of their least distance to `q`. -/
def result (p q : Vec Ideal S16384x3 .f32) : Vec Ideal S_ .f32 :=
  addf (F := Ideal) (φ := .f32) (mean (flat (nearestCol q (transposed p)))) (mean (flat (nearestCol p (transposed q))))

variable (m : (ℓ : Loc nD τ sig) → Buf (Elt Ideal) ℓ) (ρ : Dev nD → PrngReg)

/-! ## The operands of the first region: the first cloud, and the second transposed -/

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg1 (c : Dev nD) : W1 m ρ c (Proc.devRef .tc main_arg1) = m ((c : Thread nD τ).loc main_arg1) := by
  show StableHlo.after hostOps0 (W0 m ρ c) (Proc.devRef .tc main_arg1) = _
  after_results

theorem W1_v0 (c : Dev nD) : W1 m ρ c (Proc.devRef .tc main_v0) = transposed (m ((c : Thread nD τ).loc main_arg1)) := by
  unfold transposed
  show StableHlo.after hostOps0 (W0 m ρ c) (Proc.devRef .tc main_v0) = _
  after_results

/-- The first region's result array: every point of the first cloud's least distance to the second. -/
theorem W2_v1 (c : Dev nD) : W2 m ρ c (Proc.devRef .tc main_v1)
    = nearestCol (m ((c : Thread nD τ).loc main_arg0)) (transposed (m ((c : Thread nD τ).loc main_arg1))) :=
  (W2_arr m ρ c 2).trans ((Region0.final (V1 m ρ) c).trans (congrArg₂ nearestCol (W1_arg0 m ρ c) (W1_v0 m ρ c)))

/-- The first region leaves its operand, the first cloud, as launched; the second cloud is no array of it. -/
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)

theorem W2_arg1 (c : Dev nD) : W2 m ρ c (Proc.devRef .tc main_arg1) = m ((c : Thread nD τ).loc main_arg1) :=
  (W2_of_ne m ρ c main_arg1 (by decide)).trans (W1_arg1 m ρ c)

/-! ## The operands of the second region: the second cloud, and the first transposed; the first column flattened -/

theorem W3_arg1 (c : Dev nD) : W3 m ρ c (Proc.devRef .tc main_arg1) = m ((c : Thread nD τ).loc main_arg1) := by
  show StableHlo.after hostOps1 (W2 m ρ c) (Proc.devRef .tc main_arg1) = _
  after_results
  exact W2_arg1 m ρ c

theorem W3_v3 (c : Dev nD) : W3 m ρ c (Proc.devRef .tc main_v3) = transposed (m ((c : Thread nD τ).loc main_arg0)) := by
  show StableHlo.after hostOps1 (W2 m ρ c) (Proc.devRef .tc main_v3) = _
  after_results
  rw [W2_arg0]
  rfl

theorem W3_v2 (c : Dev nD) : W3 m ρ c (Proc.devRef .tc main_v2)
    = flat (nearestCol (m ((c : Thread nD τ).loc main_arg0)) (transposed (m ((c : Thread nD τ).loc main_arg1)))) := by
  show StableHlo.after hostOps1 (W2 m ρ c) (Proc.devRef .tc main_v2) = _
  after_results
  rw [W2_v1]
  rfl

/-- The second region's result array: every point of the second cloud's least distance to the first. -/
theorem W4_v4 (c : Dev nD) : W4 m ρ c (Proc.devRef .tc main_v4)
    = nearestCol (m ((c : Thread nD τ).loc main_arg1)) (transposed (m ((c : Thread nD τ).loc main_arg0))) :=
  (W4_arr m ρ c 2).trans ((Region1.final (V3 m ρ) c).trans (congrArg₂ nearestCol (W3_arg1 m ρ c) (W3_v3 m ρ c)))

theorem W4_v2 (c : Dev nD) : W4 m ρ c (Proc.devRef .tc main_v2)
    = flat (nearestCol (m ((c : Thread nD τ).loc main_arg0)) (transposed (m ((c : Thread nD τ).loc main_arg1)))) :=
  (W4_of_ne m ρ c main_v2 (by decide)).trans (W3_v2 m ρ c)

/-! ## The host tail -/

/-- The result buffer at the last boundary: the mean of the second column plus the mean of the first. -/
theorem W5_v10 (c : Dev nD) : W5 m ρ c (Proc.devRef .tc main_v10)
    = result (m ((c : Thread nD τ).loc main_arg0)) (m ((c : Thread nD τ).loc main_arg1)) := by
  show StableHlo.after hostOps2 (W4 m ρ c) (Proc.devRef .tc main_v10) = _
  after_results
  rw [W4_v4, W4_v2]
  rfl

/-- THE RUN, READ: every weakly fair execution of the idealized kernel's @main terminates with the result buffer at
    `result` of the two launch clouds and both clouds unchanged. -/
theorem run : θ_run defs (onTc (τ := τ) (main (F := Ideal))) ⟨m, fun _ => 0, ρ⟩ (fun r => ∀ c : Dev nD,
      r.2.mem ((c.tc : Thread nD τ).loc main_v10) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (W5_v10 m ρ c), (h c).2⟩) (Run.run_named (F := Ideal) m ρ)

end Cert.KernelIdeal.Value

end
-- ==== Proof.RefValue.lean ====
/-
  The reference computes the kernel's function of the two clouds.

  The reference forms the full matrix of clamped squared distances `d(n, m) = max (|p_n|² + |q_m|² − 2·(p_n · q_m)) 0`
  between the points of the first cloud `p` and of the second `q`, takes its column minima and its row minima, and
  returns the mean of the column minima plus the mean of the row minima. Row `n`'s minimum is point `p_n`'s least
  distance to `q`: the first region's column. Column `m`'s minimum is point `q_m`'s least distance to `p`, which the
  second region computes with the roles exchanged, `max (|q_m|² + |p_n|² − 2·(q_m · p_n)) 0`: the same number, since
  addition and multiplication of extended reals commute (no finiteness is needed). The means are the same host
  operations on both sides and are never opened.
-/
import proofs.«170588_j9861244912360_1_alg».proof.Proof.Gen.ReferenceIdeal.Read
import proofs.«170588_j9861244912360_1_alg».proof.Proof.KernelValue
import Idealize.ShloMosaic.Lib.ValueLayout

set_option maxRecDepth 16384

noncomputable section

namespace Cert.ReferenceIdeal.RefValue

open Idealize.ShloMosaic Idealize.ShloMosaic.ValueIdx
open Cert.ReferenceIdeal Cert.ReferenceIdeal.Gen Cert.ReferenceIdeal.Read
open Cert.KernelIdeal.Tile (wInf wTwo wZero nearest nearestCol)
open Cert.KernelIdeal.Value (flat mean transposed result)

/-- A cloud: 16384 points of three coordinates, one point per row. -/
abbrev Cloud : Type := (⟨S16384x3, .f32⟩ : BufTy).Contents (Elt Ideal)

/-- The clamped squared distance between point `n` of `x` and point `m` of `y`. -/
def pairDist (x y : Cloud) (n m : Fin 16384) : EReal :=
  max ((∑ k : Fin 3, x (ix2 n k) * x (ix2 n k)) + (∑ k : Fin 3, y (ix2 m k) * y (ix2 m k))
    - wTwo * ∑ k : Fin 3, x (ix2 n k) * y (ix2 m k)) wZero

/-- It does not depend on which of the two points is named first. -/
theorem pairDist_comm (x y : Cloud) (n m : Fin 16384) : pairDist x y n m = pairDist y x m n := by
  unfold pairDist
  have hC : (∑ k : Fin 3, x (ix2 n k) * y (ix2 m k)) = ∑ k : Fin 3, y (ix2 m k) * x (ix2 n k) :=
    Finset.sum_congr rfl fun k _ => mul_comm _ _
  rw [hC, add_comm (∑ k : Fin 3, x (ix2 n k) * x (ix2 n k))]

/-- A point's least distance to a cloud given transposed is the fold of `min` over that cloud's points. -/
theorem nearest_transposed (x y : Cloud) (n : Fin 16384) :
    nearest x (transposed y) n = (Finset.univ : Finset (Fin 16384)).fold min wInf (fun m => pairDist x y n m) := by
  unfold nearest pairDist transposed
  simp only [transpose_ix2_apply (a := 16384) (b := 3)]

/-- The zero word a host sum starts from adds nothing. -/
theorem zadd (s : EReal) : (Ideal.ofBits .f32 0x00000000#32 : EReal) + s = s := by
  rw [Ideal.ofBits_zero_f32, zero_add]

/-- The reference's matrix of clamped squared distances, at `(n, m)`. -/
theorem v15_apply (x0 x1 : Cloud) (n m : Fin 16384) :
    val_main_v15 (F := Ideal) x0 x1 (ix2 n m) = pairDist x0 x1 n m := by
  rw [val_main_v15_apply, val_main_v13_apply, val_main_v10_apply, val_main_v12_apply, val_main_v14_apply, val_main_cst_2_apply,
    val_main_v8_apply, val_main_v6_apply, val_main_v1_apply, val_main_v9_apply, val_main_v7_apply, val_main_v3_apply,
    val_main_v11_apply, val_main_cst_1_apply, val_main_v5_apply, val_main_cst_apply, val_main_cst_0_apply]
  simp only [val_main_v0_apply, val_main_v2_apply, val_main_v4_apply]
  have e1 : ∀ k : Fin 3, idx_main_v1 (idx_main_v6 (idx_main_v8 (ix2 n m))) k = ix2 n k := fun k => funext fun a => Fin.ext (by
    match a with
    | ⟨0, _⟩ => rfl
    | ⟨1, _⟩ => rfl)
  have e3 : ∀ k : Fin 3, idx_main_v3 (idx_main_v7 (idx_main_v9 (ix2 n m))) k = ix2 m k := fun k => funext fun a => Fin.ext (by
    match a with
    | ⟨0, _⟩ => rfl
    | ⟨1, _⟩ => rfl)
  have el : ∀ k : Fin 3, lidx_main_v5 (ix2 n m) k = ix2 n k := fun k => funext fun a => Fin.ext (by
    match a with
    | ⟨0, _⟩ => rfl
    | ⟨1, _⟩ => rfl)
  have er : ∀ k : Fin 3, idx_main_v4 (ridx_main_v5 (ix2 n m) k) = ix2 m k := fun k => funext fun a => Fin.ext (by
    match a with
    | ⟨0, _⟩ => rfl
    | ⟨1, _⟩ => rfl)
  simp only [e1, e3, el, er]
  unfold pairDist
  show max (((Ideal.ofBits .f32 0x00000000#32 : EReal) + ∑ k : Fin 3, x0 (ix2 n k) * x0 (ix2 n k))
      + ((Ideal.ofBits .f32 0x00000000#32 : EReal) + ∑ k : Fin 3, x1 (ix2 m k) * x1 (ix2 m k))
      - wTwo * ∑ k : Fin 3, x0 (ix2 n k) * x1 (ix2 m k)) wZero = _
  rw [zadd, zadd]

/-- The minimum over each ROW of the matrix (the reference's `min(d2, axis=1)`): at `n`, the fold of `min` over the second
    cloud's points of the distance from `p_n`. -/
theorem v19_apply (x0 x1 : Cloud) (n : Fin 16384) :
    val_main_v19 (F := Ideal) x0 x1 (ix1 n) = (Finset.univ : Finset (Fin 16384)).fold min wInf (fun m => pairDist x0 x1 n m) := by
  unfold val_main_v19
  rw [Host.reduce_eq_fold_single FloatOps.minimumf _ _ reducesTo_S16384x16384_S16384_d1 (by decide) h_S_]
  refine congrArg (fun f => (Finset.univ : Finset (Fin 16384)).fold min wInf f) (funext fun m => ?_)
  show val_main_v15 (F := Ideal) x0 x1 _ = _
  refine (congrArg (val_main_v15 (F := Ideal) x0 x1) (funext fun a => Fin.ext ?_)).trans (v15_apply x0 x1 n m)
  match a with
  | ⟨0, _⟩ => rfl
  | ⟨1, _⟩ => rfl

/-- The minimum over each COLUMN of the matrix (the reference's `min(d2, axis=0)`): at `m`, the fold of `min` over the
    first cloud's points of the distance to `q_m`. -/
theorem v16_apply (x0 x1 : Cloud) (m : Fin 16384) :
    val_main_v16 (F := Ideal) x0 x1 (ix1 m) = (Finset.univ : Finset (Fin 16384)).fold min wInf (fun n => pairDist x0 x1 n m) := by
  unfold val_main_v16
  rw [Host.reduce_eq_fold_single FloatOps.minimumf _ _ reducesTo_S16384x16384_S16384_d0 (by decide) h_S_]
  refine congrArg (fun f => (Finset.univ : Finset (Fin 16384)).fold min wInf f) (funext fun n => ?_)
  show val_main_v15 (F := Ideal) x0 x1 _ = _
  refine (congrArg (val_main_v15 (F := Ideal) x0 x1) (funext fun a => Fin.ext ?_)).trans (v15_apply x0 x1 n m)
  match a with
  | ⟨0, _⟩ => rfl
  | ⟨1, _⟩ => rfl

/-- A column `[16384, 1]` flattened reads, at `n`, the column's entry `(n, 0)`. -/
theorem flat_apply (v : Vec Ideal Cert.KernelIdeal.S16384x1 .f32) (n : Fin 16384) : flat v (ix1 n) = v (ix2 n (0 : Fin 1)) := by
  unfold flat
  exact Cert.AxisFolds.shapeCast_a1_a_apply (a := 16384) v _ n

/-- The row minima are the first region's column, flattened. -/
theorem v19_eq (x0 x1 : Cloud) : val_main_v19 (F := Ideal) x0 x1 = flat (nearestCol x0 (transposed x1)) := by
  funext i
  obtain ⟨n, rfl⟩ : ∃ n : Fin 16384, i = ix1 n := ⟨i 0, eq_ix1 i⟩
  rw [v19_apply, flat_apply]
  exact (nearest_transposed x0 x1 n).symm

/-- The column minima are the second region's column, flattened: the same distances with the two points exchanged. -/
theorem v16_eq (x0 x1 : Cloud) : val_main_v16 (F := Ideal) x0 x1 = flat (nearestCol x1 (transposed x0)) := by
  funext i
  obtain ⟨m, rfl⟩ : ∃ m : Fin 16384, i = ix1 m := ⟨i 0, eq_ix1 i⟩
  rw [v16_apply, flat_apply]
  refine ((nearest_transposed x1 x0 m).trans ?_).symm
  exact congrArg (fun f => (Finset.univ : Finset (Fin 16384)).fold min wInf f) (funext fun n => pairDist_comm x1 x0 m n)

/-- THE REFERENCE'S RESULT is the kernel's: the mean of the column minima plus the mean of the row minima. -/
theorem result_eq (x0 x1 : Cloud) : val_main_v22 (F := Ideal) x0 x1 = result x0 x1 := by
  show addf (F := Ideal) (φ := .f32) (mean (val_main_v16 (F := Ideal) x0 x1)) (mean (val_main_v19 (F := Ideal) x0 x1)) = _
  rw [v16_eq, v19_eq]
  rfl

end Cert.ReferenceIdeal.RefValue

end
-- ==== Proof.lean ====
/-
  Two clouds of 16384 points in three coordinates, `p̂` and `p`. With `d(n, m) = max (|p̂_n|² + |p_m|² − 2·(p̂_n · p_m)) 0`
  the clamped squared distance, both programs return  mean_m (min_n d(n, m)) + mean_n (min_m d(n, m)).

  The kernel never forms the matrix `d`: it runs one nearest-point search twice. A search takes a cloud by rows, 512
  points to a grid point, and the other cloud transposed and resident; for each of its rows it folds, over sixteen
  chunks of 1024 columns, the chunk's row minimum of the tile of distances into a running minimum that starts at +∞
  (Tile; read at the extended reals in TileIdeal: the running minimum is the fold of `min` over all 16384 columns, since
  a number lies below a fold of `min` exactly when it lies below its start and every entry, and every column lies in
  exactly one chunk). The 32 row blocks tile the search's result column (Body0 / Region0 for `p̂` against `p`, Body1 /
  Region1 for `p` against `p̂`), and the host takes the two means and adds them (KernelValue). The reference's row minima
  are the first search's column; its column minima are the second search's column with the two points of each distance
  exchanged, the same number because `+` and `·` commute on the extended reals (RefValue). No step needs the inputs
  finite; the precondition is not opened. The narrowing of the matrix unit's operands is the identity at the extended
  reals, and the ideal pass rewrote nothing (`preserves` is `True`).
-/
import proofs.«170588_j9861244912360_1_alg».proof.Defs
import proofs.«170588_j9861244912360_1_alg».proof.Proof.Gen.Kernel
import proofs.«170588_j9861244912360_1_alg».proof.Proof.Gen.Kernel.Skeleton
import proofs.«170588_j9861244912360_1_alg».proof.Proof.Gen.Kernel.Launch
import proofs.«170588_j9861244912360_1_alg».proof.Proof.Gen.Kernel.Points
import proofs.«170588_j9861244912360_1_alg».proof.Proof.Gen.Kernel.Frame
import proofs.«170588_j9861244912360_1_alg».proof.Proof.Gen.KernelIdeal
import proofs.«170588_j9861244912360_1_alg».proof.Proof.Gen.KernelIdeal.Skeleton
import proofs.«170588_j9861244912360_1_alg».proof.Proof.Gen.KernelIdeal.Launch
import proofs.«170588_j9861244912360_1_alg».proof.Proof.Gen.KernelIdeal.Points
import proofs.«170588_j9861244912360_1_alg».proof.Proof.Gen.KernelIdeal.Frame
import proofs.«170588_j9861244912360_1_alg».proof.Proof.Gen.ReferenceIdeal
import proofs.«170588_j9861244912360_1_alg».proof.Proof.Gen.Pre_finite_inputs
import proofs.«170588_j9861244912360_1_alg».proof.Proof.Gen.ReferenceIdeal.Run
import proofs.«170588_j9861244912360_1_alg».proof.Proof.Gen.ReferenceIdeal.Read
import proofs.«170588_j9861244912360_1_alg».proof.Proof.KernelValue
import proofs.«170588_j9861244912360_1_alg».proof.Proof.RefValue
import Idealize.ShloMosaic.Adequacy
import Idealize.ShloMosaic.Init

noncomputable section

namespace Cert.Proof

open Idealize.ShloMosaic Idealize.SL.Sem

/-- The word-level kernel runs and leaves both clouds as launched. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and leaves both clouds as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the two clouds, both programs end at `KernelIdeal.Value.result` of them: the kernel by its
    run read through the two searches, the reference by its run and `RefValue.result_eq`. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v22_eq _ _).trans (Cert.ReferenceIdeal.RefValue.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
